-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S1024x256 : Shape := ⟨2, ![1024, 256]⟩
abbrev S1024x512 : Shape := ⟨2, ![1024, 512]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S16384x256 .f32) (main_arg1 : FVec F S1024x256 .f32) (main_arg2 : FVec F S1024x512 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  main_v13
-- ==== Kernel.lean ====
abbrev S16384x256 : Shape := ⟨2, ![16384, 256]⟩
abbrev S1024x256 : Shape := ⟨2, ![1024, 256]⟩
abbrev S1024x512 : Shape := ⟨2, ![1024, 512]⟩
abbrev S16384x512 : Shape := ⟨2, ![16384, 512]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S1024 : Shape := ⟨1, ![1024]⟩
abbrev S1x1024 : Shape := ⟨2, ![1, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S1024x512, .f32⟩
  | .hbm, ⟨3, _⟩ => ⟨S16384x512, .f32⟩
  | .local _ .vmem, ⟨0, _⟩ => ⟨S512x256, .f32⟩
  | .local _ .vmem, ⟨1, _⟩ => ⟨S512x256, .f32⟩
  | .local _ .vmem, ⟨2, _⟩ => ⟨S1024x256, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  inb_S1024x512_S1024x512_0_0 : ∀ a, (![0, 0] : Fin 2 → Nat) a + S1024x512.size a ≤ S1024x512.size a
  h_S1024x512 : 0 < S1024x512.numel
  reduces_S512x256_S512 : S512x256.Reduces [1] S512
  shapeCasts_S512_S512x1 : S512.ShapeCasts S512x1
  reduces_S1024x256_S1024 : S1024x256.Reduces [1] S1024
  shapeCasts_S1024_S1x1024 : S1024.ShapeCasts S1x1024
  bitsLt_bf16_f32 : FTy.bits .bf16 < FTy.bits .f32
  broadcasts_S512x1_S512x1024 : S512x1.Broadcasts S512x1024
  broadcasts_S1x1024_S512x1024 : S1x1024.Broadcasts S512x1024
  inb_S512x512_S512x512_0_0 : ∀ a, (![0, 0] : Fin 2 → Nat) a + S512x512.size a ≤ S512x512.size a
  h_S512x512 : 0 < S512x512.numel
  dot_S512x256_S1024x256_S512x1024_1_1_0_0_n_n_wf : DotDims.WF S512x256 S1024x256 S512x1024 [1] [1] [0] [0] [] []
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S16384x256.size a
  hwx0_0 : ∀ i : grid0.Coords, EltTy.bits .f32 = 32 ∨ (Rect.block (s := S16384x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .f32 = 32 ∨ (Rect.block (s := S1024x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S16384x512.size a
  hwx0_3 : ∀ i : grid0.Coords, EltTy.bits .f32 = 32 ∨ (Rect.block (s := S16384x512) S512x512.size (cc0_transform_3 i) (hinb0_3 i)).WholeWords (EltTy.packing .f32)

variable [Facts₀]

def dot_S512x256_S1024x256_S512x1024_1_1_0_0_n_n : DotDims S512x256 S1024x256 S512x1024 where
  lhsContracting := [1]
  rhsContracting := [1]
  lhsNonContracting := [0]
  rhsNonContracting := [0]
  lhsBatch := []
  rhsBatch := []
  wf := dot_S512x256_S1024x256_S512x1024_1_1_0_0_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x256 : Shape := ⟨2, ![16384, 256]⟩
abbrev S1024x256 : Shape := ⟨2, ![1024, 256]⟩
abbrev S1024x512 : Shape := ⟨2, ![1024, 512]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S256x1024 : Shape := ⟨2, ![256, 1024]⟩
abbrev S16384x512 : Shape := ⟨2, ![16384, 512]⟩

abbrev nBuf : Space → Nat
  | .hbm => 28
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S1024x512, .f32⟩
  | .hbm, ⟨3, _⟩ => ⟨S16384x256, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S1024x256, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S256x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x512, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  reducesTo_S16384x256_S16384_d1 : S16384x256.ReducesTo [1] S16384
  h_S_ : 0 < S_.numel
  bcast_S16384_S16384x1_0 : S16384.BroadcastsInDim S16384x1 (![0] : Fin 1 → Fin S16384x1.rank)
  reducesTo_S1024x256_S1024_d1 : S1024x256.ReducesTo [1] S1024
  bcast_S1024_S1x1024_1 : S1024.BroadcastsInDim S1x1024 (![1] : Fin 1 → Fin S1x1024.rank)
  bcast_S16384x1_S16384x1024_0_1 : S16384x1.BroadcastsInDim S16384x1024 (![0, 1] : Fin 2 → Fin S16384x1024.rank)
  bcast_S1x1024_S16384x1024_0_1 : S1x1024.BroadcastsInDim S16384x1024 (![0, 1] : Fin 2 → Fin S16384x1024.rank)
  transposes_S1024x256_S256x1024_1_0 : S1024x256.Transposes [1, 0] S256x1024
  bcast_S_S16384x1024 : S_.BroadcastsInDim S16384x1024 (![] : Fin 0 → Fin S16384x1024.rank)
  dot_S16384x256_S256x1024_S16384x1024_1_0_0_1_n_n_wf : DotDims.WF S16384x256 S256x1024 S16384x1024 [1] [0] [0] [1] [] []
  dot_S16384x1024_S1024x512_S16384x512_1_0_0_1_n_n_wf : DotDims.WF S16384x1024 S1024x512 S16384x512 [1] [0] [0] [1] [] []

variable [Facts₀]

def dot_S16384x256_S256x1024_S16384x1024_1_0_0_1_n_n : DotDims S16384x256 S256x1024 S16384x1024 where
  lhsContracting := [1]
  rhsContracting := [0]
  lhsNonContracting := [0]
  rhsNonContracting := [1]
  lhsBatch := []
  rhsBatch := []
  wf := dot_S16384x256_S256x1024_S16384x1024_1_0_0_1_n_n_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf

class Facts : Prop extends Facts₀ where

variable [Facts]
-- ==== Proof.Spec.lean ====
/-
  The radial-basis layer as one function of its three arrays.

  For points `x : [n, d]`, centres `ce : [c, d]` and weights `w : [c, o]` the layer computes, for a point `p`
  and a centre `q`, the squared distance by the expanded identity
  `‖x_p‖² + ‖ce_q‖² − 2·⟨x_p, ce_q⟩`, clamps it below at zero, applies `exp (−·)`, and then multiplies the
  `[n, c]` array of these values with the weights: entry `(p, j)` of the result is
  `∑_q exp (−max (‖x_p‖² + ‖ce_q‖² − 2·⟨x_p, ce_q⟩, 0)) · w (q, j)`.
  The three constants stay the words the programs print (`-1`, `2`, `0`): both sides carry the same words, so
  they are never evaluated.

  Row `p` of the result depends on row `p` of `x` only (`out_rows`): a block of rows of `x`, run through the
  same function, gives the same rows of the result. No order of summation and no finiteness is used anywhere:
  the sums are sums in a commutative monoid.
-/
import Idealize.ShloMosaic.PureOps.Ideal
import Idealize.ShloMosaic.Lib.ValueIdx

noncomputable section

open scoped BigOperators

namespace Cert.Rbf

open Idealize.ShloMosaic Idealize.ShloMosaic.ValueIdx

variable {n c d o : ℕ}

/-- The squared norm of row `p`: the sum of the squares of its entries. -/
def rowSq (x : FVec Ideal ⟨2, ![n, d]⟩ .f32) (p : Fin n) : EReal :=
  ∑ k : Fin d, x (ix2 p k) * x (ix2 p k)

/-- The inner product of row `p` of `x` with row `q` of `ce`. -/
def cross (x : FVec Ideal ⟨2, ![n, d]⟩ .f32) (ce : FVec Ideal ⟨2, ![c, d]⟩ .f32) (p : Fin n) (q : Fin c) : EReal :=
  ∑ k : Fin d, x (ix2 p k) * ce (ix2 q k)

/-- The basis value of point `p` at centre `q`: `exp (−max (‖x_p‖² + ‖ce_q‖² − 2·⟨x_p, ce_q⟩, 0))`. -/
def basis (x : FVec Ideal ⟨2, ![n, d]⟩ .f32) (ce : FVec Ideal ⟨2, ![c, d]⟩ .f32) (p : Fin n) (q : Fin c) : EReal :=
  Ideal.exp (Ideal.ofBits .f32 0xBF800000#32
    * max (rowSq x p + rowSq ce q - Ideal.ofBits .f32 0x40000000#32 * cross x ce p q) (Ideal.ofBits .f32 0x00000000#32))

/-- Entry `(p, j)` of the layer's result: the basis values of point `p` against column `j` of the weights, summed
    over the centres. -/
def outAt (x : FVec Ideal ⟨2, ![n, d]⟩ .f32) (ce : FVec Ideal ⟨2, ![c, d]⟩ .f32) (w : FVec Ideal ⟨2, ![c, o]⟩ .f32)
    (p : Fin n) (j : Fin o) : EReal :=
  ∑ q : Fin c, basis x ce p q * w (ix2 q j)

/-- The layer's result as an array. -/
def out (x : FVec Ideal ⟨2, ![n, d]⟩ .f32) (ce : FVec Ideal ⟨2, ![c, d]⟩ .f32) (w : FVec Ideal ⟨2, ![c, o]⟩ .f32) :
    FVec Ideal ⟨2, ![n, o]⟩ .f32 :=
  fun i => outAt x ce w (i 0) (i 1)

theorem out_apply (x : FVec Ideal ⟨2, ![n, d]⟩ .f32) (ce : FVec Ideal ⟨2, ![c, d]⟩ .f32) (w : FVec Ideal ⟨2, ![c, o]⟩ .f32)
    (p : Fin n) (j : Fin o) : out x ce w (ix2 p j) = outAt x ce w p j := rfl

variable {n' : ℕ}

/-- The basis value of a point reads that point's row only. -/
theorem basis_rows (x : FVec Ideal ⟨2, ![n, d]⟩ .f32) (x' : FVec Ideal ⟨2, ![n', d]⟩ .f32) (ce : FVec Ideal ⟨2, ![c, d]⟩ .f32)
    (p : Fin n) (p' : Fin n') (h : ∀ k : Fin d, x (ix2 p k) = x' (ix2 p' k)) (q : Fin c) :
    basis x ce p q = basis x' ce p' q := by
  unfold basis rowSq cross
  simp only [h]

/-- Row `p` of the layer's result reads row `p` of the points only. -/
theorem out_rows (x : FVec Ideal ⟨2, ![n, d]⟩ .f32) (x' : FVec Ideal ⟨2, ![n', d]⟩ .f32) (ce : FVec Ideal ⟨2, ![c, d]⟩ .f32)
    (w : FVec Ideal ⟨2, ![c, o]⟩ .f32) (p : Fin n) (p' : Fin n') (h : ∀ k : Fin d, x (ix2 p k) = x' (ix2 p' k)) (j : Fin o) :
    out x ce w (ix2 p j) = out x' ce w (ix2 p' j) := by
  rw [out_apply, out_apply]
  unfold outAt
  exact Finset.sum_congr rfl fun q _ => by rw [basis_rows x x' ce p p' h q]

end Cert.Rbf

end
-- ==== Proof.Payload.lean ====
/-
  What the kernel body stores is the layer of its block of points.

  The body loads a block of 512 points, all 1024 centres and all the weights, and stores one `[512, 512]` value. Read at
  an entry `(p, j)`: the last product, into a zero accumulator, is the sum over the centres `q` of the left operand at
  `(p, q)` times the weights at `(q, j)` (a change of float format is the identity on the ideal values); the left
  operand at `(p, q)` is `exp (−1 · max (s − 2·t, 0))`, where `s` is the sum of two broadcasts — the points' row sums
  of squares, kept as a column, and the centres' row sums of squares, laid as a row — and `t` is the first product at
  `(p, q)`, which contracts the second axis of BOTH operands: the inner product of row `p` of the points with row `q`
  of the centres. That is the specification's entry, for the block in place of all the points.
-/
import proofs.«127643_j3968549781593_1_alg».proof.Proof.Gen.KernelIdeal.Skeleton
import proofs.«127643_j3968549781593_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Rbf.Body

open Cert.KernelIdeal Cert.KernelIdeal.Gen Idealize.ShloMosaic Idealize.ShloMosaic.ValueIdx

/-! ## Layout operations and the exponential, read at an entry -/

/-- The exponential of a vector reads entry by entry. -/
theorem exp_apply {s : Shape} {φ : FTy} (a : FVec Ideal s φ) (i : s.Idx) : exp a i = Ideal.exp (a i) := rfl

/-- An `[a]` array cast to a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the second axis of a rank-2 vector, from the zero word, reads at row `p` as the sum of that row. -/
theorem rowSum_apply {n d : ℕ} (v : FVec Ideal ⟨2, ![n, d]⟩ .f32) (h : (⟨2, ![n, d]⟩ : Shape).Reduces [1] ⟨1, ![n]⟩)
    (hφ : FKind.Formats .f32) (hacc : (0x00000000#32 : BitVec 32) = 0x00000000#32) (p : Fin n) :
    multiReduction .add [1] ⟨1, ![n]⟩ v 0x00000000#32 h hφ hacc (ix1 p) = ∑ k : Fin d, v (ix2 p k) := by
  refine (Ideal.multiReduction_add_single v 0x00000000#32 h hφ hacc (ix1 p)).trans ?_
  refine Finset.sum_congr rfl fun k _ => congrArg v ?_
  funext a
  apply Fin.ext
  match a with
  | ⟨0, _⟩ => rfl
  | ⟨1, _⟩ => rfl

/-! ## The first product: both operands contracted on their second axis -/

theorem lhs1_0 (i : S512x1024.Idx) (κ : dot_S512x256_S1024x256_S512x1024_1_1_0_0_n_n.contr.Idx) :
    (dot_S512x256_S1024x256_S512x1024_1_1_0_0_n_n.lhsIdx i κ 0).val = (i 0).val := by
  unfold DotDims.lhsIdx
  rw [dif_neg (show ¬(0 : Fin S512x256.rank) ∈ dot_S512x256_S1024x256_S512x1024_1_1_0_0_n_n.lhsBatch by decide), dif_pos (show (0 : Fin S512x256.rank) ∈ dot_S512x256_S1024x256_S512x1024_1_1_0_0_n_n.lhsNonContracting by decide)]
  rfl
theorem lhs1_1 (i : S512x1024.Idx) (κ : dot_S512x256_S1024x256_S512x1024_1_1_0_0_n_n.contr.Idx) :
    (dot_S512x256_S1024x256_S512x1024_1_1_0_0_n_n.lhsIdx i κ 1).val = (κ ⟨0, by decide⟩).val :=
  dot_S512x256_S1024x256_S512x1024_1_1_0_0_n_n.lhsIdx_val_of_single rfl i κ
theorem rhs1_0 (i : S512x1024.Idx) (κ : dot_S512x256_S1024x256_S512x1024_1_1_0_0_n_n.contr.Idx) :
    (dot_S512x256_S1024x256_S512x1024_1_1_0_0_n_n.rhsIdx i κ 0).val = (i 1).val := by
  unfold DotDims.rhsIdx
  rw [dif_neg (show ¬(0 : Fin S1024x256.rank) ∈ dot_S512x256_S1024x256_S512x1024_1_1_0_0_n_n.rhsBatch by decide), dif_pos (show (0 : Fin S1024x256.rank) ∈ dot_S512x256_S1024x256_S512x1024_1_1_0_0_n_n.rhsNonContracting by decide)]
  rfl
theorem rhs1_1 (i : S512x1024.Idx) (κ : dot_S512x256_S1024x256_S512x1024_1_1_0_0_n_n.contr.Idx) :
    (dot_S512x256_S1024x256_S512x1024_1_1_0_0_n_n.rhsIdx i κ 1).val = (κ ⟨0, by decide⟩).val :=
  dot_S512x256_S1024x256_S512x1024_1_1_0_0_n_n.rhsIdx_val_of_single rfl i κ

/-- The first product at `(p, q)`: row `p` of the left operand against row `q` of the right one. -/
theorem rows_product_apply (l : FVec Ideal S512x256 .bf16) (r : FVec Ideal S1024x256 .bf16) (p : Fin 512) (q : Fin 1024) :
    matmul dot_S512x256_S1024x256_S512x1024_1_1_0_0_n_n none l r (constant (F := Ideal) S512x1024 .f32 0x00000000#32) (ix2 p q)
      = ∑ k : Fin 256, l (ix2 p k) * r (ix2 q k) := by
  show FloatOps.matmul dot_S512x256_S1024x256_S512x1024_1_1_0_0_n_n none l r (constant (F := Ideal) S512x1024 .f32 0x00000000#32) (ix2 p q) = _
  rw [Ideal.matmul_constant_zero_apply, ← Equiv.sum_comp (contrEquiv1 dot_S512x256_S1024x256_S512x1024_1_1_0_0_n_n 256 rfl rfl).symm]
  refine Finset.sum_congr rfl fun k _ => ?_
  have hk := contrEquiv1_symm_val dot_S512x256_S1024x256_S512x1024_1_1_0_0_n_n 256 rfl rfl k
  have el : dot_S512x256_S1024x256_S512x1024_1_1_0_0_n_n.lhsIdx (ix2 p q) ((contrEquiv1 dot_S512x256_S1024x256_S512x1024_1_1_0_0_n_n 256 rfl rfl).symm k) = ix2 p k := funext fun a => Fin.ext (by
    match a with
    | ⟨0, _⟩ => exact lhs1_0 _ _
    | ⟨1, _⟩ => exact (lhs1_1 _ _).trans hk)
  have er : dot_S512x256_S1024x256_S512x1024_1_1_0_0_n_n.rhsIdx (ix2 p q) ((contrEquiv1 dot_S512x256_S1024x256_S512x1024_1_1_0_0_n_n 256 rfl rfl).symm k) = ix2 q k := funext fun a => Fin.ext (by
    match a with
    | ⟨0, _⟩ => exact rhs1_0 _ _
    | ⟨1, _⟩ => exact (rhs1_1 _ _).trans hk)
  rw [el, er]

/-! ## The second product: rows by columns -/

theorem lhs2_0 (i : S512x512.Idx) (κ : dot_S512x1024_S1024x512_S512x512_1_0_0_1_n_n.contr.Idx) :
    (dot_S512x1024_S1024x512_S512x512_1_0_0_1_n_n.lhsIdx i κ 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem lhs2_1 (i : S512x512.Idx) (κ : dot_S512x1024_S1024x512_S512x512_1_0_0_1_n_n.contr.Idx) :
    (dot_S512x1024_S1024x512_S512x512_1_0_0_1_n_n.lhsIdx i κ 1).val = (κ ⟨0, by decide⟩).val :=
  dot_S512x1024_S1024x512_S512x512_1_0_0_1_n_n.lhsIdx_val_of_single rfl i κ
theorem rhs2_0 (i : S512x512.Idx) (κ : dot_S512x1024_S1024x512_S512x512_1_0_0_1_n_n.contr.Idx) :
    (dot_S512x1024_S1024x512_S512x512_1_0_0_1_n_n.rhsIdx i κ 0).val = (κ ⟨0, by decide⟩).val :=
  dot_S512x1024_S1024x512_S512x512_1_0_0_1_n_n.rhsIdx_val_of_single rfl i κ
theorem rhs2_1 (i : S512x512.Idx) (κ : dot_S512x1024_S1024x512_S512x512_1_0_0_1_n_n.contr.Idx) :
    (dot_S512x1024_S1024x512_S512x512_1_0_0_1_n_n.rhsIdx i κ 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- The second product at `(p, j)`: row `p` of the left operand against column `j` of the right one. -/
theorem rows_columns_apply (l : FVec Ideal S512x1024 .bf16) (r : FVec Ideal S1024x512 .bf16) (p : Fin 512) (j : Fin 512) :
    matmul dot_S512x1024_S1024x512_S512x512_1_0_0_1_n_n none l r (constant (F := Ideal) S512x512 .f32 0x00000000#32) (ix2 p j)
      = ∑ q : Fin 1024, l (ix2 p q) * r (ix2 q j) := by
  show FloatOps.matmul dot_S512x1024_S1024x512_S512x512_1_0_0_1_n_n none l r (constant (F := Ideal) S512x512 .f32 0x00000000#32) (ix2 p j) = _
  rw [Ideal.matmul_constant_zero_apply, ← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 p j) ((contrEquiv1 dot_S512x1024_S1024x512_S512x512_1_0_0_1_n_n 1024 rfl rfl).symm k) = ix2 p k := funext fun a => Fin.ext (by
    match a with
    | ⟨0, _⟩ => exact lhs2_0 _ _
    | ⟨1, _⟩ => exact (lhs2_1 _ _).trans hk)
  have er : dot_S512x1024_S1024x512_S512x512_1_0_0_1_n_n.rhsIdx (ix2 p j) ((contrEquiv1 dot_S512x1024_S1024x512_S512x512_1_0_0_1_n_n 1024 rfl rfl).symm k) = ix2 k j := funext fun a => Fin.ext (by
    match a with
    | ⟨0, _⟩ => exact (rhs2_0 _ _).trans hk
    | ⟨1, _⟩ => exact rhs2_1 _ _)
  rw [el, er]

/-! ## The stored value -/

/-- The value the body stores, from its three loaded blocks, is the layer of the block of points. -/
theorem payload (x0 : FVec Ideal S512x256 .f32) (x1 : FVec Ideal S1024x256 .f32) (x2 : FVec Ideal S1024x512 .f32) :
    k0_pay1 (F := Ideal) x0 x1 x2 = out x0 x1 x2 := by
  funext i
  obtain ⟨p, j, rfl⟩ : ∃ (p : Fin 512) (j : Fin 512), i = ix2 p j := ⟨i 0, i 1, eq_ix2 i⟩
  unfold k0_pay1
  dsimp only
  rw [rows_columns_apply, out_apply]
  unfold outAt
  refine Finset.sum_congr rfl fun q _ => ?_
  rw [truncf_apply, truncf_apply, exp_apply, mulf_apply, broadcast_apply, maximumf_apply, broadcast_apply, subf_apply,
    addf_apply, mulf_apply, broadcast_apply, rows_product_apply, broadcastTo_a1_ab_apply, shapeCast_a_a1_apply,
    rowSum_apply, broadcastTo_1b_ab_apply, shapeCast_a_1a_apply, rowSum_apply]
  rfl

end Cert.Rbf.Body

end
-- ==== Proof.KernelValue.lean ====
/-
  The kernel's result array is the layer of the argument arrays.

  The grid has 32 points. Point `t` stages rows `512·t … 512·t + 511` of the points, the whole centres and the whole
  weights, and writes back rows `512·t … 512·t + 511` of the result. What it writes is the layer of its block of
  points (the stored value), and a row of the layer reads that row of the points only: so point `t` writes block
  `t` of the layer of ALL the points. The 32 blocks cover the result array (row `r` lies in block `r / 512`), so the
  array ends holding the layer.
-/
import proofs.«127643_j3968549781593_1_alg».proof.Proof.Gen.KernelIdeal.Value
import proofs.«127643_j3968549781593_1_alg».proof.Proof.Payload
import Idealize.ShloMosaic.Lib.Pipeline.Value
import Idealize.ShloMosaic.Lib.Tactic

noncomputable section

open scoped BigOperators

open Idealize.ShloMosaic Idealize.ShloMosaic.TcCoe Idealize.SL.Sem Idealize.ShloMosaic.ValueIdx
open Idealize.ShloMosaic.Pipeline (Dat)

namespace Cert.Rbf.Kernel

open Cert.KernelIdeal Cert.KernelIdeal.Gen Cert.KernelIdeal.Value

variable (m : (ℓ : Loc nD τ sig) → Buf (Elt Ideal) ℓ) (ρ : Dev nD → PrngReg)

theorem hz : (![0, 0] : Fin 2 → Nat) = fun _ => 0 := funext fun a => by fin_cases a <;> rfl

/-- The three argument arrays as the region finds them, at their literal types. -/
abbrev points (c : Dev nD) : FVec Ideal S16384x256 .f32 := V m c main_arg0
abbrev centres (c : Dev nD) : FVec Ideal S1024x256 .f32 := V m c main_arg1
abbrev weights (c : Dev nD) : FVec Ideal S1024x512 .f32 := V m c main_arg2

/-- The layer of the argument arrays: what the result array ends holding. -/
abbrev result (c : Dev nD) : Buf (Elt Ideal) ((c : Thread nD τ).loc main_v0) :=
  out (points m c) (centres m c) (weights m c)

/-- The printed index maps over the grid: the points' and the result's windows move down one block of rows per
    point; the centres' and the weights' windows stay at the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The staged blocks, read off the arrays -/

/-- Entry `(p, k)` of the points' block at point `t` is entry `(512·t + p, k)` of the points. -/
theorem points_block (c : Dev nD) (t : Fin cfg0.N) (y : S512x256.Idx) (i : S16384x256.Idx)
    (h0 : (i 0).val = t.val * 512 + (y 0).val) (h1 : (i 1).val = (y 1).val) :
    (iblk m c 0 t : Vec Ideal S512x256 .f32) y = points m c i := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 512 + 1 * (y 0).val = (i 0).val; rw [e0, h0]; omega
  | ⟨1, _⟩ => show win0_0.index t (1 : Fin 2) * 256 + 1 * (y 1).val = (i 1).val; rw [e1, h1]; omega

/-- The centres' block at every point is the centres. -/
theorem centres_block (c : Dev nD) (t : Fin cfg0.N) : (iblk m c 1 t : Vec Ideal S1024x256 .f32) = centres m c := by
  obtain ⟨-, -, e0, e1, -⟩ := idx_facts t
  funext y
  unfold iblk
  rw [View.read_apply]
  show V m c main_arg1 _ = V m c main_arg1 _
  congr 1
  funext a
  apply Fin.ext
  match a with
  | ⟨0, _⟩ => show win0_1.index t (0 : Fin 2) * 1024 + 1 * (y 0).val = (y 0).val; rw [e0]; omega
  | ⟨1, _⟩ => show win0_1.index t (1 : Fin 2) * 256 + 1 * (y 1).val = (y 1).val; rw [e1]; omega

/-- The weights' block at every point is the weights. -/
theorem weights_block (c : Dev nD) (t : Fin cfg0.N) : (iblk m c 2 t : Vec Ideal S1024x512 .f32) = weights m c := by
  obtain ⟨-, -, -, -, e0, e1, -⟩ := idx_facts t
  funext y
  unfold iblk
  rw [View.read_apply]
  show V m c main_arg2 _ = V m c main_arg2 _
  congr 1
  funext a
  apply Fin.ext
  match a with
  | ⟨0, _⟩ => show win0_2.index t (0 : Fin 2) * 1024 + 1 * (y 0).val = (y 0).val; rw [e0]; omega
  | ⟨1, _⟩ => show win0_2.index t (1 : Fin 2) * 512 + 1 * (y 1).val = (y 1).val; rw [e1]; omega

/-! ## What a point writes back -/

/-- The stored value of a block of rows, at an entry, is the layer of all the points at the entry `512·r` rows down:
    stated over plain arrays, the block's rows being rows `512·r …` of the points. -/
theorem block_entry (x : FVec Ideal S16384x256 .f32) (ce : FVec Ideal S1024x256 .f32) (w : FVec Ideal S1024x512 .f32)
    (xb : FVec Ideal S512x256 .f32) (r : ℕ)
    (hx : ∀ (y : S512x256.Idx) (i : S16384x256.Idx), (i 0).val = r * 512 + (y 0).val → (i 1).val = (y 1).val → xb y = x i)
    (y : S512x512.Idx) (i : S16384x512.Idx) (h0 : (i 0).val = r * 512 + (y 0).val) (h1 : (i 1).val = (y 1).val) :
    k0_pay1 (F := Ideal) xb ce w y = out x ce w i := by
  rw [Body.payload]
  obtain ⟨p, j, rfl⟩ : ∃ (p : Fin 512) (j : Fin 512), y = ix2 p j := ⟨y 0, y 1, eq_ix2 y⟩
  obtain ⟨p', j', rfl⟩ : ∃ (p' : Fin 16384) (j' : Fin 512), i = ix2 p' j' := ⟨i 0, i 1, eq_ix2 i⟩
  obtain rfl : j' = j := Fin.ext h1
  exact out_rows xb x ce w p p' (fun k => hx (ix2 p k) (ix2 p' k) h0 rfl) j'

/-- WHAT POINT `t` WRITES BACK is block `t` of the layer of the argument arrays. -/
theorem flushed_eq (c : Dev nD) (t : Fin cfg0.N) :
    (dats m 0 c).flushed 3 t = ((cfg0.win 3).blk t).view.read (Elt Ideal) (result m c) := by
  obtain ⟨-, -, -, -, -, -, e0, e1⟩ := idx_facts t
  rw [Value.flushed3]
  unfold out0_3
  rw [View.canon_unit_zero hz]
  simp only [View.ld_unit_zero (S := S512x256) hz, View.ld_unit_zero (S := S1024x256) hz, View.ld_unit_zero (S := S1024x512) hz]
  rw [centres_block m c t, weights_block m c t]
  funext y
  show k0_pay1 (F := Ideal) (iblk m c 0 t) (centres m c) (weights m c) y = result m c (((cfg0.win 3).blk t).view.emb y)
  refine block_entry (points m c) (centres m c) (weights m c) (iblk m c 0 t) t.val
    (fun y' i' h0' h1' => points_block m c t y' i' h0' h1') y (((cfg0.win 3).blk t).view.emb y) ?_ ?_
  · show win0_3.index t (0 : Fin 2) * 512 + 1 * (y 0).val = t.val * 512 + (y 0).val
    rw [e0]; omega
  · show win0_3.index t (1 : Fin 2) * 512 + 1 * (y 1).val = (y 1).val
    rw [e1]; omega

/-! ## The blocks cover the array -/

/-- An index of the result array is in point `t`'s block iff each coordinate is in the block's range on its axis. -/
theorem mem_blk (t : Fin cfg0.N) (i : S16384x512.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v0).slice (win0_3.rect t)).set ↔ _
  rw [View.set_slice_whole, Rect.mem_set_unit]
  exact Iff.rfl

/-- Every index of the result array lies in the block of the point its row falls to. -/
theorem cover (i : S16384x512.Idx) : ∃ t : Fin cfg0.N, (cfg0.win 3).flush t = true ∧ i ∈ ((cfg0.win 3).blk t).view.set := by
  have hN : cfg0.N = 32 := N_0
  have hi0 : (i 0).val < 16384 := (i 0).isLt
  have hi1 : (i 1).val < 512 := (i 1).isLt
  let t : Fin cfg0.N := ⟨(i 0).val / 512, by rw [hN]; omega⟩
  have ht : t.val = (i 0).val / 512 := rfl
  obtain ⟨-, -, -, -, -, -, e0, e1⟩ := idx_facts t
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; rw [e0, ht]; omega
  | ⟨1, _⟩ => show win0_3.index t (1 : Fin 2) * 512 ≤ (i 1).val ∧ (i 1).val < win0_3.index t (1 : Fin 2) * 512 + 512; rw [e1]; omega

/-- THE ARRAY after the run is the layer of the argument arrays. -/
theorem final (c : Dev nD) : (dats m 0 c).arrAt 3 cfg0.N = result m c :=
  (dats m 0 c).arrAt_eq_of_cover 3 (result m c) (fun t _ => flushed_eq m c t) cover

/-! ## The run, read -/

/-- The kernel's run: the result array ends at the layer of the argument arrays, which end unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.Rbf.Kernel

end
-- ==== Proof.RefValue.lean ====
/-
  The host program computes the layer.

  The reference takes the row sums of squares of the points and of the centres, broadcasts them to the
  `[16384, 1024]` grid of (point, centre) pairs, subtracts twice the product of the points with the transposed
  centres, clamps at zero, negates, exponentiates, and multiplies with the weights. Read at an entry, operation by
  operation, every stage is the corresponding piece of the specification: the two row sums are `rowSq` (the sum's
  initial value is the zero word), the product with the transposed centres at `(p, q)` is the inner product of row
  `p` of the points with row `q` of the centres, and the last product at `(p, j)` sums the basis values of point
  `p` against column `j` of the weights.
-/
import proofs.«127643_j3968549781593_1_alg».proof.Proof.Gen.ReferenceIdeal.Read
import proofs.«127643_j3968549781593_1_alg».proof.Proof.Spec

noncomputable section

open scoped BigOperators

namespace Cert.Rbf.Ref

open Cert.ReferenceIdeal Cert.ReferenceIdeal.Read Idealize.ShloMosaic Idealize.ShloMosaic.ValueIdx

variable (x : FVec Ideal S16384x256 .f32) (ce : FVec Ideal S1024x256 .f32) (w : FVec Ideal S1024x512 .f32)

/-! ## The index maps of the stages, at an entry given by its coordinates -/

theorem idx_v1 (p : Fin 16384) (k : Fin 256) : idx_main_v1 (ix1 p) k = ix2 p k :=
  funext fun a => by match a with | ⟨0, _⟩ => rfl | ⟨1, _⟩ => rfl
theorem idx_v4 (q : Fin 1024) (k : Fin 256) : idx_main_v4 (ix1 q) k = ix2 q k :=
  funext fun a => by match a with | ⟨0, _⟩ => rfl | ⟨1, _⟩ => rfl
theorem idx_v6 (p : Fin 16384) (q : Fin 1024) : idx_main_v2 (idx_main_v6 (ix2 p q)) = ix1 p :=
  funext fun a => by match a with | ⟨0, _⟩ => rfl
theorem idx_v7 (p : Fin 16384) (q : Fin 1024) : idx_main_v5 (idx_main_v7 (ix2 p q)) = ix1 q :=
  funext fun a => by match a with | ⟨0, _⟩ => rfl
theorem lidx_v10 (p : Fin 16384) (q : Fin 1024) (k : Fin 256) : lidx_main_v10 (ix2 p q) k = ix2 p k :=
  funext fun a => by match a with | ⟨0, _⟩ => rfl | ⟨1, _⟩ => rfl
theorem ridx_v10 (p : Fin 16384) (q : Fin 1024) (k : Fin 256) : idx_main_v9 (ridx_main_v10 (ix2 p q) k) = ix2 q k :=
  funext fun a => by match a with | ⟨0, _⟩ => rfl | ⟨1, _⟩ => rfl
theorem lidx_v19 (p : Fin 16384) (j : Fin 512) (q : Fin 1024) : lidx_main_v19 (ix2 p j) q = ix2 p q :=
  funext fun a => by match a with | ⟨0, _⟩ => rfl | ⟨1, _⟩ => rfl
theorem ridx_v19 (p : Fin 16384) (j : Fin 512) (q : Fin 1024) : ridx_main_v19 (ix2 p j) q = ix2 q j :=
  funext fun a => by match a with | ⟨0, _⟩ => rfl | ⟨1, _⟩ => rfl

/-! ## The stages -/

/-- The row sums of squares of the points. -/
theorem sq_points (p : Fin 16384) : val_main_v1 (F := Ideal) x (ix1 p) = rowSq x p := by
  rw [val_main_v1_apply, val_main_cst_apply, Ideal.ofBits_def, Ideal.ofBits_zero_f32, zero_add]
  unfold rowSq
  refine Finset.sum_congr rfl fun k _ => ?_
  rw [val_main_v0_apply, idx_v1, Ideal.mulf_def]

/-- The row sums of squares of the centres. -/
theorem sq_centres (q : Fin 1024) : val_main_v4 (F := Ideal) ce (ix1 q) = rowSq ce q := by
  rw [val_main_v4_apply, val_main_cst_0_apply, Ideal.ofBits_def, Ideal.ofBits_zero_f32, zero_add]
  unfold rowSq
  refine Finset.sum_congr rfl fun k _ => ?_
  rw [val_main_v3_apply, idx_v4, Ideal.mulf_def]

/-- The product of the points with the transposed centres, at `(p, q)`. -/
theorem inner (p : Fin 16384) (q : Fin 1024) : val_main_v10 (F := Ideal) x ce (ix2 p q) = cross x ce p q := by
  rw [val_main_v10_apply]
  unfold cross
  refine Finset.sum_congr rfl fun k _ => ?_
  rw [val_main_v9_apply, lidx_v10, ridx_v10]

/-- The basis values, at `(p, q)`. -/
theorem basis_at (p : Fin 16384) (q : Fin 1024) : val_main_v18 (F := Ideal) x ce (ix2 p q) = basis x ce p q := by
  rw [val_main_v18_apply, val_main_v17_apply, val_main_v16_apply, val_main_cst_3_apply, val_main_v15_apply,
    val_main_v14_apply, val_main_cst_2_apply, val_main_v13_apply, val_main_v8_apply, val_main_v12_apply,
    val_main_v11_apply, val_main_cst_1_apply, val_main_v6_apply, val_main_v2_apply, val_main_v7_apply,
    val_main_v5_apply, idx_v6, idx_v7, sq_points, sq_centres, inner]
  rfl

/-- The reference's result is the layer. -/
theorem result : val_main_v19 (F := Ideal) x ce w = out x ce w := by
  funext i
  obtain ⟨p, j, rfl⟩ : ∃ (p : Fin 16384) (j : Fin 512), i = ix2 p j := ⟨i 0, i 1, eq_ix2 i⟩
  rw [val_main_v19_apply, out_apply]
  unfold outAt
  refine Finset.sum_congr rfl fun q _ => ?_
  rw [lidx_v19, ridx_v19, basis_at]

end Cert.Rbf.Ref

end
-- ==== Proof.lean ====
/-
  The radial-basis layer: the kernel and its reference compute one function over the extended reals.

  For points `x : [16384, 256]`, centres `ce : [1024, 256]` and weights `w : [1024, 512]` both programs compute
  `out (p, j) = ∑_q exp (−max (‖x_p‖² + ‖ce_q‖² − 2·⟨x_p, ce_q⟩, 0)) · w (q, j)` (Proof/Spec.lean).

  The reference does it on whole arrays, one host operation after another; read at an entry every stage is the
  matching piece of that formula (Proof/RefValue.lean). The kernel runs 32 grid points; point `t` takes rows
  `512·t … 512·t + 511` of the points together with all the centres and all the weights, and stores the same formula
  for its rows (Proof/Payload.lean): two products into zero accumulators are plain sums over the contracted axis, the
  changes of float format are the identity on the ideal values, and the two row sums of squares are broadcast along a
  column and along a row. A row of the result reads that row of the points only, so point `t` writes block `t` of
  the formula for all the points, and the 32 blocks cover the result array (Proof/KernelValue.lean).

  The two sides are the same sums of the same terms: nothing is reordered across a sum, no law that fails at the
  infinities is used, and the precondition is never opened. The three frames are the generated ones (the
  reference's is its generated run with the result dropped); the ideal pass rewrote nothing, so there is nothing to
  preserve.
-/
import proofs.«127643_j3968549781593_1_alg».proof.Defs
import proofs.«127643_j3968549781593_1_alg».proof.Proof.Gen.Kernel
import proofs.«127643_j3968549781593_1_alg».proof.Proof.Gen.Kernel.Skeleton
import proofs.«127643_j3968549781593_1_alg».proof.Proof.Gen.Kernel.Launch
import proofs.«127643_j3968549781593_1_alg».proof.Proof.Gen.Kernel.Points
import proofs.«127643_j3968549781593_1_alg».proof.Proof.Gen.Kernel.Frame
import proofs.«127643_j3968549781593_1_alg».proof.Proof.Gen.KernelIdeal
import proofs.«127643_j3968549781593_1_alg».proof.Proof.Gen.KernelIdeal.Skeleton
import proofs.«127643_j3968549781593_1_alg».proof.Proof.Gen.KernelIdeal.Launch
import proofs.«127643_j3968549781593_1_alg».proof.Proof.Gen.KernelIdeal.Points
import proofs.«127643_j3968549781593_1_alg».proof.Proof.Gen.KernelIdeal.Frame
import proofs.«127643_j3968549781593_1_alg».proof.Proof.Gen.KernelIdeal.Value
import proofs.«127643_j3968549781593_1_alg».proof.Proof.Gen.ReferenceIdeal
import proofs.«127643_j3968549781593_1_alg».proof.Proof.Gen.ReferenceIdeal.Run
import proofs.«127643_j3968549781593_1_alg».proof.Proof.Gen.ReferenceIdeal.Read
import proofs.«127643_j3968549781593_1_alg».proof.Proof.Gen.Pre_finite_inputs
import proofs.«127643_j3968549781593_1_alg».proof.Proof.KernelValue
import proofs.«127643_j3968549781593_1_alg».proof.Proof.RefValue
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- The reference terminates and leaves its arguments as they were: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the three arguments the kernel's result array ends at the layer of its arguments
    and the reference's at the layer of its own: the same array. -/
theorem algebraic : Cert.algebraic_KernelIdeal_ReferenceIdeal := by
  intro m ρ m' ρ' _ hagree
  refine ⟨fun c => Cert.Rbf.Kernel.result m c, Cert.Rbf.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.Rbf.Ref.result, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
